-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x512 : Shape := ⟨2, ![512, 512]⟩
abbrev S512 : Shape := ⟨1, ![512]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v15 : IVec S_ 1) : IVec S_ 1 :=
  let main_v16 : IVec S_ 1 := andi main_v13 main_v15
  main_v16

def fn {F : FTy → Type} [FloatOps F] (main_arg0 : FVec F S65536x512 .f32) (main_arg1 : FVec F S512x512 .f32) (main_arg2 : FVec F S512 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_cst_4 : FVec F S_ .f32 := constant S_ .f32 0xFF800000#32
  let main_v14 : FVec F S_ .f32 := (fun x v => Host.reduce FloatOps.maximumf x v reducesTo_S65536x512_S_d0_1 h_S_) main_arg0 main_cst_4
  let main_cst_5 : FVec F S_ .f32 := constant S_ .f32 0x00000000#32
  let main_v15 : IVec S_ 1 := cmpf .une main_v14 main_cst_5
  fn_part1 (F := F) main_v13 main_v15
-- ==== Kernel.lean ====
abbrev S65536x512 : Shape := ⟨2, ![65536, 512]⟩
abbrev S512x512 : Shape := ⟨2, ![512, 512]⟩
abbrev S512 : Shape := ⟨1, ![512]⟩
abbrev S1x512 : Shape := ⟨2, ![1, 512]⟩
abbrev S2048x512 : Shape := ⟨2, ![2048, 512]⟩

abbrev nBuf : Space → Nat
  | .hbm => 7
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S512x512, .bf16⟩
  | .hbm, ⟨5, _⟩ => ⟨S1x512, .f32⟩
  | .hbm, ⟨6, _⟩ => ⟨S65536x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x512_S512x512_1_0 : S512x512.Transposes [1, 0] S512x512
  bitsLt_bf16_f32 : FTy.bits .bf16 < FTy.bits .f32
  shapeCasts_S512_S1x512 : S512.ShapeCasts S1x512
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S65536x512.size a
  hwx0_3 : ∀ i : grid0.Coords, EltTy.bits .f32 = 32 ∨ (Rect.block (s := S65536x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x512 : Shape := ⟨2, ![512, 512]⟩
abbrev S512 : Shape := ⟨1, ![512]⟩
abbrev S_ : Shape := ⟨0, ![]⟩
abbrev S1x512 : Shape := ⟨2, ![1, 512]⟩

abbrev nBuf : Space → Nat
  | .hbm => 34
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S65536x512, .f32⟩
  | .hbm, ⟨13, _⟩ => ⟨S65536x512, .f32⟩
  | .hbm, ⟨14, _⟩ => ⟨S512x512, .f32⟩
  | .hbm, ⟨15, _⟩ => ⟨S512x512, .f32⟩
  | .hbm, ⟨16, _⟩ => ⟨S_, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S_, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S65536x512, .f32⟩
  | .hbm, ⟨25, _⟩ => ⟨S512x512, .f32⟩
  | .hbm, ⟨26, _⟩ => ⟨S65536x512, .f32⟩
  | .hbm, ⟨27, _⟩ => ⟨S_, .f32⟩
  | .hbm, ⟨28, _⟩ => ⟨S65536x512, .f32⟩
  | .hbm, ⟨29, _⟩ => ⟨S65536x512, .f32⟩
  | .hbm, ⟨30, _⟩ => ⟨S65536x512, .f32⟩
  | .hbm, ⟨31, _⟩ => ⟨S1x512, .f32⟩
  | .hbm, ⟨32, _⟩ => ⟨S65536x512, .f32⟩
  | .hbm, ⟨33, _⟩ => ⟨S65536x512, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_cst : Ref sig .tc := ⟨.hbm, 16, rfl⟩
abbrev main_call0_v0 : Ref sig .tc := ⟨.hbm, 17, rfl⟩
abbrev main_v10 : Ref sig .tc := ⟨.hbm, 18, rfl⟩
abbrev main_v11 : Ref sig .tc := ⟨.hbm, 19, rfl⟩
abbrev main_call1_cst : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]

class Facts₀ : Prop where
  reducesTo_S65536x512_S_d0_1 : S65536x512.ReducesTo [0, 1] S_
  h_S_ : 0 < S_.numel
  reducesTo_S512x512_S_d0_1 : S512x512.ReducesTo [0, 1] S_
  bcast_S_S65536x512 : S_.BroadcastsInDim S65536x512 (![] : Fin 0 → Fin S65536x512.rank)
  bcast_S_S512x512 : S_.BroadcastsInDim S512x512 (![] : Fin 0 → Fin S512x512.rank)
  transposes_S512x512_S512x512_1_0 : S512x512.Transposes [1, 0] S512x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  dot_S65536x512_S512x512_S65536x512_1_0_0_1_n_n_wf : DotDims.WF S65536x512 S512x512 S65536x512 [1] [0] [0] [1] [] []

variable [Facts₀]

def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf

class Facts : Prop extends Facts₀ where

variable [Facts]
-- ==== Proof.LibExtrema.lean ====
/-
  Extrema of a whole array on the host, at the exact instance.

  A host maximum-reduce over ALL axes of an array (jnp.max(x): the result has one index) from the initial value −∞ is
  the greatest entry; a minimum-reduce from +∞ is the least.  So when every entry is a real number the result is a
  real number too (the array has at least one entry), every entry lies between the least and the greatest, and if
  max(|least|, |greatest|) is 0 then every entry is 0.  Also: what the test  |x| < +∞  says of an extended real.
-/
import Idealize.ShloMosaic.PureOps.Ideal
import Idealize.ShloMosaic.PureOps.Ideal.Laws
import Idealize.ShloMosaic.PureOps.Reduce

noncomputable section

namespace Cert.LibExtrema

open Idealize.ShloMosaic

variable {s t u : Shape} {axes : List (Fin s.rank)}

/-- The scalar shape has one index. -/
instance scalarIdx_subsingleton : Subsingleton (⟨0, ![]⟩ : Shape).Idx := ⟨fun _ _ => funext fun d => d.elim0⟩

/-- The f32 pattern of −∞ denotes the bottom of the extended reals. -/
theorem ofBits_neg_inf : Ideal.ofBits .f32 0xFF800000#32 = ⊥ := by simp [Ideal.ofBits, Ideal.ieee]

/-- The f32 pattern of +∞ denotes the top of the extended reals. -/
theorem ofBits_pos_inf : Ideal.ofBits .f32 0x7F800000#32 = ⊤ := by simp [Ideal.ofBits, Ideal.ieee]

/-- A maximum-reduce into a result of one index is the maximum, from the initial value, over every entry. -/
theorem reduce_max_eq_fold [Subsingleton t.Idx] (x : s.Idx → Ideal .f32) (init : u.Idx → Ideal .f32)
    (h : s.ReducesTo axes t) (hu : 0 < u.numel) (j : t.Idx) :
    Host.reduce (FloatOps.maximumf (F := Ideal) (φ := .f32)) x init h hu j
      = (Finset.univ : Finset s.Idx).fold (max : EReal → EReal → EReal) (init (Shape.Idx.first hu)) x := by
  rw [Host.reduce_eq_fold, Finset.filter_true_of_mem (fun i _ => Subsingleton.elim _ _)]
  rfl

/-- A minimum-reduce into a result of one index is the minimum, from the initial value, over every entry. -/
theorem reduce_min_eq_fold [Subsingleton t.Idx] (x : s.Idx → Ideal .f32) (init : u.Idx → Ideal .f32)
    (h : s.ReducesTo axes t) (hu : 0 < u.numel) (j : t.Idx) :
    Host.reduce (FloatOps.minimumf (F := Ideal) (φ := .f32)) x init h hu j
      = (Finset.univ : Finset s.Idx).fold (min : EReal → EReal → EReal) (init (Shape.Idx.first hu)) x := by
  rw [Host.reduce_eq_fold, Finset.filter_true_of_mem (fun i _ => Subsingleton.elim _ _)]
  rfl

/-- Every entry is at most the array's maximum. -/
theorem le_reduce_max [Subsingleton t.Idx] (x : s.Idx → Ideal .f32) (init : u.Idx → Ideal .f32)
    (h : s.ReducesTo axes t) (hu : 0 < u.numel) (j : t.Idx) (i : s.Idx) :
    x i ≤ Host.reduce (FloatOps.maximumf (F := Ideal) (φ := .f32)) x init h hu j := by
  rw [reduce_max_eq_fold]
  exact (Finset.le_fold_max _).2 (Or.inr ⟨i, Finset.mem_univ i, le_rfl⟩)

/-- The array's minimum is at most every entry. -/
theorem reduce_min_le [Subsingleton t.Idx] (x : s.Idx → Ideal .f32) (init : u.Idx → Ideal .f32)
    (h : s.ReducesTo axes t) (hu : 0 < u.numel) (j : t.Idx) (i : s.Idx) :
    Host.reduce (FloatOps.minimumf (F := Ideal) (φ := .f32)) x init h hu j ≤ x i := by
  rw [reduce_min_eq_fold]
  exact (Finset.fold_min_le _).2 (Or.inr ⟨i, Finset.mem_univ i, le_rfl⟩)

/-- The maximum, from −∞, of an array with an entry and with every entry real is real. -/
theorem reduce_max_real [Subsingleton t.Idx] (x : s.Idx → Ideal .f32) (init : u.Idx → Ideal .f32)
    (h : s.ReducesTo axes t) (hu : 0 < u.numel) (j : t.Idx) (hinit : init (Shape.Idx.first hu) = ⊥)
    (hx : ∀ i, x i ≠ ⊤ ∧ x i ≠ ⊥) (i0 : s.Idx) :
    Host.reduce (FloatOps.maximumf (F := Ideal) (φ := .f32)) x init h hu j ≠ ⊤
      ∧ Host.reduce (FloatOps.maximumf (F := Ideal) (φ := .f32)) x init h hu j ≠ ⊥ := by
  refine ⟨?_, fun e => (hx i0).2 (le_bot_iff.1 (e ▸ le_reduce_max x init h hu j i0))⟩
  rw [reduce_max_eq_fold, hinit]
  exact ((Finset.fold_max_lt _).2 ⟨bot_lt_top, fun i _ => lt_top_iff_ne_top.2 (hx i).1⟩).ne

/-- The minimum, from +∞, of an array with an entry and with every entry real is real. -/
theorem reduce_min_real [Subsingleton t.Idx] (x : s.Idx → Ideal .f32) (init : u.Idx → Ideal .f32)
    (h : s.ReducesTo axes t) (hu : 0 < u.numel) (j : t.Idx) (hinit : init (Shape.Idx.first hu) = ⊤)
    (hx : ∀ i, x i ≠ ⊤ ∧ x i ≠ ⊥) (i0 : s.Idx) :
    Host.reduce (FloatOps.minimumf (F := Ideal) (φ := .f32)) x init h hu j ≠ ⊤
      ∧ Host.reduce (FloatOps.minimumf (F := Ideal) (φ := .f32)) x init h hu j ≠ ⊥ := by
  refine ⟨fun e => (hx i0).1 (top_le_iff.1 (e ▸ reduce_min_le x init h hu j i0)), ?_⟩
  rw [reduce_min_eq_fold, hinit]
  exact ((Finset.lt_fold_min _).2 ⟨bot_lt_top, fun i _ => bot_lt_iff_ne_bot.2 (hx i).2⟩).ne'

/-- The magnitude max(y, −y) of a real is real. -/
theorem abs_real (y : EReal) (hy : y ≠ ⊤ ∧ y ≠ ⊥) : max y (-y) ≠ ⊤ ∧ max y (-y) ≠ ⊥ := by
  obtain ⟨r, rfl⟩ : ∃ r : ℝ, y = r := ⟨y.toReal, (EReal.coe_toReal hy.1 hy.2).symm⟩
  rcases max_choice (r : EReal) (-(r : EReal)) with e | e <;> rw [e]
  · exact ⟨EReal.coe_ne_top r, EReal.coe_ne_bot r⟩
  · rw [← EReal.coe_neg]; exact ⟨EReal.coe_ne_top _, EReal.coe_ne_bot _⟩

/-- The larger of two reals is real. -/
theorem max_real (a b : EReal) (ha : a ≠ ⊤ ∧ a ≠ ⊥) (hb : b ≠ ⊤ ∧ b ≠ ⊥) : max a b ≠ ⊤ ∧ max a b ≠ ⊥ := by
  rcases max_choice a b with e | e <;> rw [e]
  exacts [ha, hb]

/-- If the larger of |lo| and |hi| is 0, everything between lo and hi is 0. -/
theorem eq_zero_of_maxAbs_eq_zero {ι : Type} (lo hi : EReal) (x : ι → EReal) (hlo : ∀ i, lo ≤ x i) (hhi : ∀ i, x i ≤ hi)
    (h : max (max lo (-lo)) (max hi (-hi)) = 0) (i : ι) : x i = 0 := by
  have h1 : -lo ≤ 0 := ((le_max_right lo (-lo)).trans (le_max_left _ _)).trans h.le
  have h2 : hi ≤ 0 := ((le_max_left hi (-hi)).trans (le_max_right _ _)).trans h.le
  have h3 : 0 ≤ lo := by have := EReal.neg_le.1 h1; rwa [neg_zero] at this
  exact le_antisymm ((hhi i).trans h2) (h3.trans (hlo i))

/-- The test |x| < +∞ answers 1 exactly for the reals. -/
theorem real_of_abs_lt_inf (x : EReal)
    (h : Ideal.cmp .olt (max x (-x)) (Ideal.ofBits .f32 0x7F800000#32) = 1#1) : x ≠ ⊤ ∧ x ≠ ⊥ := by
  rw [ofBits_pos_inf] at h
  have hlt : max x (-x) < ⊤ := by
    by_contra hn
    simp [Ideal.cmp, hn] at h
  constructor
  · rintro rfl; exact absurd hlt (by simp)
  · rintro rfl; exact absurd hlt (by simp)

end Cert.LibExtrema

end
-- ==== Proof.Domain.lean ====
/-
  What the precondition says of the arrays: every entry of X and of W is a real number, and the greatest entry of X —
  the number the reference divides X by — is not 0.
-/
import proofs.«418667_j44985487458619_3_alg».proof.Pre_finite_inputs
import proofs.«418667_j44985487458619_3_alg».proof.Proof.LibExtrema
import Idealize.ShloMosaic.Lib.ReduceAll
import Idealize.ShloMosaic.Lib.ValueIdx
import Idealize.ShloMosaic.Lib.Pipeline.Value

noncomputable section

namespace Cert.LinearBias

open Idealize.ShloMosaic Cert.Pre_finite_inputs Cert.Pre_finite_inputs.Facts

variable [Cert.Pre_finite_inputs.Facts]

/-- The greatest entry of X, as the precondition and the reference both spell it. -/
abbrev greatest (X : FVec Ideal S65536x512 .f32) : EReal :=
  Host.reduce (FloatOps.maximumf (F := Ideal) (φ := .f32)) X (constant (F := Ideal) S_ .f32 0xFF800000#32)
    reducesTo_S65536x512_S_d0_1 h_S_ ValueIdx.ix0

/-- One entry's test |x| < +∞, the bound being the scalar +∞ spread over the array's shape, says the entry is real
    (for an array of any shape: the spread scalar is +∞ at every entry). -/
theorem real_of_test {S : Shape} (bc : S_.BroadcastsInDim S (![] : Fin 0 → Fin S.rank)) (x : FVec Ideal S .f32)
    (i : S.Idx)
    (hp : cmpf .olt (Host.absf x) (broadcastInDim S ![] bc (constant (F := Ideal) S_ .f32 0x7F800000#32)) i = 1#1) :
    x i ≠ ⊤ ∧ x i ≠ ⊥ := by
  have hb : broadcastInDim S ![] bc (constant (F := Ideal) S_ .f32 0x7F800000#32) i = Ideal.ofBits .f32 0x7F800000#32 :=
    broadcastInDim_apply _ bc _ i ValueIdx.ix0 (fun a => a.elim0)
  have hp' : Ideal.cmp .olt (max (x i) (-(x i)))
      (broadcastInDim S ![] bc (constant (F := Ideal) S_ .f32 0x7F800000#32) i) = 1#1 := hp
  rw [hb] at hp'
  exact Cert.LibExtrema.real_of_abs_lt_inf (x i) hp'

/-- The test g ≠ 0 on a scalar answers 1 only when the scalar is not 0. -/
theorem ne_zero_of_test (g : FVec Ideal S_ .f32)
    (h : cmpf .une g (constant (F := Ideal) S_ .f32 0x00000000#32) ValueIdx.ix0 = 1#1) : g ValueIdx.ix0 ≠ 0 := by
  intro e
  have h5 : Ideal.cmp .une (g ValueIdx.ix0) (Ideal.ofBits .f32 0x00000000#32) = 1#1 := h
  rw [e] at h5
  simp [Ideal.cmp, Ideal.ofBits, Ideal.ieee] at h5

/-- The precondition, read back: X and W hold reals, and the greatest entry of X is not 0. -/
theorem domain (X : FVec Ideal S65536x512 .f32) (W : FVec Ideal S512x512 .f32) (B : FVec Ideal S512 .f32)
    (h : fn (F := Ideal) X W B = fun _ => 1#1) :
    (∀ i, X i ≠ ⊤ ∧ X i ≠ ⊥) ∧ (∀ i, W i ≠ ⊤ ∧ W i ≠ ⊥) ∧ greatest X ≠ 0 := by
  have h0 := congrFun h ValueIdx.ix0
  dsimp only [fn, fn_part1] at h0
  obtain ⟨h123, h4⟩ := IntOp.andi_eq_one.1 h0
  obtain ⟨h12, _⟩ := IntOp.andi_eq_one.1 h123
  obtain ⟨h1, h2⟩ := IntOp.andi_eq_one.1 h12
  refine ⟨fun i => ?_, fun i => ?_, ne_zero_of_test _ h4⟩
  · have hp := Host.reduce_andi_all _ _ _ _ _ h1 i
    exact real_of_test bcast_S_S65536x512 X i hp
  · have hp := Host.reduce_andi_all _ _ _ _ _ h2 i
    exact real_of_test bcast_S_S512x512 W i hp

end Cert.LinearBias

end
-- ==== Proof.Spec.lean ====
/-
  What both programs compute, and the law that joins them.

  The kernel is one matrix product plus a bias: entry (r, c) of the result is  Σ_k X[r,k] · W[c,k] + B[c].
  The reference first scales X by a⁻¹ and W by b⁻¹ (a = max X, b = max(|min W|, |max W|)), splits the scaled
  weights into their positive and negative parts, multiplies X/a by each part, subtracts, and scales the
  difference back by a·b.  On the reals  max(y, 0) − max(−y, 0) = y,  so the two products' difference is the
  product with W/b itself and the factors a·b cancel the two divisions — provided a ≠ 0.  When b = 0 every
  weight is 0, both sides' sums vanish (the reference's through the factor a·0 = 0), and nothing is divided out.
-/
import Idealize.ShloMosaic.PureOps.Ideal
import Idealize.ShloMosaic.PureOps.Ideal.Laws
import Idealize.ShloMosaic.Lib.ValueIdx

noncomputable section

namespace Cert.LinearBias

open Idealize.ShloMosaic Idealize.ShloMosaic.ValueIdx

/-- Entry (r, c) of the result: row r of X against row c of W, plus the bias of column c. -/
def G (X : (⟨2, ![65536, 512]⟩ : Shape).Idx → EReal) (W : (⟨2, ![512, 512]⟩ : Shape).Idx → EReal)
    (B : (⟨1, ![512]⟩ : Shape).Idx → EReal) : (⟨2, ![65536, 512]⟩ : Shape).Idx → EReal :=
  fun i => (∑ k : Fin 512, X (ix2 (i 0 : Fin 65536) k) * W (ix2 (i 1 : Fin 512) k)) + B (ix1 (i 1 : Fin 512))

theorem G_apply (X : (⟨2, ![65536, 512]⟩ : Shape).Idx → EReal) (W : (⟨2, ![512, 512]⟩ : Shape).Idx → EReal)
    (B : (⟨1, ![512]⟩ : Shape).Idx → EReal) (r : Fin 65536) (c : Fin 512) :
    G X W B (ix2 r c) = (∑ k : Fin 512, X (ix2 r k) * W (ix2 c k)) + B (ix1 c) := rfl

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The positive part of a real, taken on the extended reals, is the real's positive part. -/
theorem posPart_coe (y : ℝ) : max (y : EReal) 0 = ((max y 0 : ℝ) : EReal) := by
  have h := (EReal.coe_strictMono.monotone.map_max (a := y) (b := 0)).symm
  rwa [EReal.coe_zero] at h

/-- On the reals: scaling back the difference of the two split products gives the plain product. -/
theorem split_real {ι : Type} (s : Finset ι) (a b : ℝ) (ha : a ≠ 0) (hb : b ≠ 0) (x w : ι → ℝ) :
    a * b * ((∑ k ∈ s, x k * (1 / a) * max (w k * (1 / b)) 0) - ∑ k ∈ s, x k * (1 / a) * max (-(w k * (1 / b))) 0)
      = ∑ k ∈ s, x k * w k := by
  rw [← Finset.sum_sub_distrib, Finset.mul_sum]
  refine Finset.sum_congr rfl fun k _ => ?_
  rw [← mul_sub, max_zero_sub_eq_self]
  field_simp

/-- The same on the extended reals, for real entries and real scales: a ≠ 0, and b = 0 only when every weight is 0. -/
theorem split_ereal {ι : Type} (s : Finset ι) (a b : ℝ) (ha : a ≠ 0) (x w : ι → ℝ) (hb : b = 0 → ∀ k, w k = 0) :
    ((a : EReal) * (b : EReal)) *
        ((∑ k ∈ s, Ideal.div (x k : EReal) (a : EReal) * max (Ideal.div (w k : EReal) (b : EReal)) 0)
          - ∑ k ∈ s, Ideal.div (x k : EReal) (a : EReal) * max (-(Ideal.div (w k : EReal) (b : EReal))) 0)
      = ∑ k ∈ s, (x k : EReal) * (w k : EReal) := by
  by_cases hb0 : b = 0
  · -- every weight is 0: the left side carries the factor a · 0, the right side is a sum of zeros
    have hw := hb hb0
    subst hb0
    rw [EReal.coe_zero, mul_zero, zero_mul]
    refine (Finset.sum_eq_zero fun k _ => ?_).symm
    rw [hw k, EReal.coe_zero, mul_zero]
  · have e1 : ∀ k, Ideal.div (x k : EReal) (a : EReal) * max (Ideal.div (w k : EReal) (b : EReal)) 0
        = ((x k * (1 / a) * max (w k * (1 / b)) 0 : ℝ) : EReal) := fun k => by
      rw [Ideal.div_coe ha, Ideal.div_coe hb0, ← EReal.coe_mul, ← EReal.coe_mul, posPart_coe, ← EReal.coe_mul]
    have e2 : ∀ k, Ideal.div (x k : EReal) (a : EReal) * max (-(Ideal.div (w k : EReal) (b : EReal))) 0
        = ((x k * (1 / a) * max (-(w k * (1 / b))) 0 : ℝ) : EReal) := fun k => by
      rw [Ideal.div_coe ha, Ideal.div_coe hb0, ← EReal.coe_mul, ← EReal.coe_mul, ← EReal.coe_neg, posPart_coe,
        ← EReal.coe_mul]
    simp only [e1, e2]
    rw [← coe_sum, ← coe_sum, ← EReal.coe_sub, ← EReal.coe_mul, ← EReal.coe_mul, split_real s a b ha hb0, coe_sum]
    exact Finset.sum_congr rfl fun k _ => EReal.coe_mul _ _

/-- The reference's formula at entry (r, c), for finite arrays and finite scales, is the plain product. -/
theorem scaled_split_eq (X : (⟨2, ![65536, 512]⟩ : Shape).Idx → EReal) (W : (⟨2, ![512, 512]⟩ : Shape).Idx → EReal)
    (nx nw : EReal) (hX : ∀ i, X i ≠ ⊤ ∧ X i ≠ ⊥) (hW : ∀ i, W i ≠ ⊤ ∧ W i ≠ ⊥)
    (hnx : nx ≠ ⊤ ∧ nx ≠ ⊥) (hnx0 : nx ≠ 0) (hnw : nw ≠ ⊤ ∧ nw ≠ ⊥) (hzero : nw = 0 → ∀ i, W i = 0)
    (r : Fin 65536) (c : Fin 512) :
    (nx * nw) * ((∑ k : Fin 512, Ideal.div (X (ix2 r k)) nx * max (Ideal.div (W (ix2 c k)) nw) 0)
        - ∑ k : Fin 512, Ideal.div (X (ix2 r k)) nx * max (-(Ideal.div (W (ix2 c k)) nw)) 0)
      = ∑ k : Fin 512, X (ix2 r k) * W (ix2 c k) := by
  obtain ⟨a, rfl⟩ : ∃ a : ℝ, nx = a := ⟨nx.toReal, (EReal.coe_toReal hnx.1 hnx.2).symm⟩
  obtain ⟨b, rfl⟩ : ∃ b : ℝ, nw = b := ⟨nw.toReal, (EReal.coe_toReal hnw.1 hnw.2).symm⟩
  obtain ⟨x, rfl⟩ : ∃ x : _ → ℝ, X = fun i => (x i : EReal) :=
    ⟨fun i => (X i).toReal, funext fun i => (EReal.coe_toReal (hX i).1 (hX i).2).symm⟩
  obtain ⟨w, rfl⟩ : ∃ w : _ → ℝ, W = fun i => (w i : EReal) :=
    ⟨fun i => (W i).toReal, funext fun i => (EReal.coe_toReal (hW i).1 (hW i).2).symm⟩
  have ha : a ≠ 0 := fun h => hnx0 (by rw [h, EReal.coe_zero])
  have hb : b = 0 → ∀ k : Fin 512, w (ix2 c k) = 0 := fun h k => by
    have h0 : (w (ix2 c k) : EReal) = 0 := hzero (by rw [h, EReal.coe_zero]) (ix2 c k)
    exact_mod_cast h0
  exact split_ereal Finset.univ a b ha (fun k => x (ix2 r k)) (fun k => w (ix2 c k)) hb

end Cert.LinearBias

end
-- ==== Proof.RefValue.lean ====
/-
  The reference's result, entry by entry, is the plain product plus the bias.

  Read one operation at a time, entry (r, c) of the reference's result is
      (a · b) · ( Σ_k (X[r,k] / a) · max(W[c,k] / b, 0)  −  Σ_k (X[r,k] / a) · max(−(W[c,k] / b), 0) )  +  B[c]
  with a the greatest entry of X and b = max(|least entry of W|, |greatest entry of W|).  For arrays of reals a and b
  are reals, and b = 0 forces every weight to be 0; with a ≠ 0 the law of the specification module turns the bracket
  into Σ_k X[r,k] · W[c,k].
-/
import proofs.«418667_j44985487458619_3_alg».proof.Proof.Gen.ReferenceIdeal.Read
import proofs.«418667_j44985487458619_3_alg».proof.Proof.Spec
import proofs.«418667_j44985487458619_3_alg».proof.Proof.LibExtrema

noncomputable section

namespace Cert.LinearBias.Ref

open Cert.ReferenceIdeal Cert.ReferenceIdeal.Gen Cert.ReferenceIdeal.Read Idealize.ShloMosaic Idealize.ShloMosaic.ValueIdx
open Cert.LinearBias

/-! ### The composed index maps of the reference's layout operations, as coordinates -/

/-- The left factor of either product at (r, c), term k, sits at (r, k). -/
theorem lhs_row (r : Fin 65536) (c k : Fin 512) : lidx_main_v14 (ix2 r c) k = ix2 r k :=
  funext fun a => Fin.ext (by match a with | ⟨0, _⟩ => rfl | ⟨1, _⟩ => rfl)

theorem lhs_row' (r : Fin 65536) (c k : Fin 512) : lidx_main_v16 (ix2 r c) k = ix2 r k :=
  funext fun a => Fin.ext (by match a with | ⟨0, _⟩ => rfl | ⟨1, _⟩ => rfl)

/-- The transposed positive part at (k, c) is the weights' row c at k. -/
theorem rhs_row (r : Fin 65536) (c k : Fin 512) : idx_main_v13 (ridx_main_v14 (ix2 r c) k) = ix2 c k :=
  funext fun a => Fin.ext (by match a with | ⟨0, _⟩ => rfl | ⟨1, _⟩ => rfl)

theorem rhs_row' (r : Fin 65536) (c k : Fin 512) : idx_main_v15 (ridx_main_v16 (ix2 r c) k) = ix2 c k :=
  funext fun a => Fin.ext (by match a with | ⟨0, _⟩ => rfl | ⟨1, _⟩ => rfl)

/-- The bias spread over the rows, at (r, c), is the bias at c. -/
theorem bias_col (r : Fin 65536) (c : Fin 512) : idx_main_v21 (idx_main_v22 (ix2 r c)) = ix1 c :=
  funext fun a => Fin.ext (by match a with | ⟨0, _⟩ => rfl)

/-! ### A scalar spread over an array is that scalar at every entry -/

theorem spread_greatest (X : FVec Ideal S65536x512 .f32) (i : S65536x512.Idx) :
    val_main_v6 (F := Ideal) X i = val_main_v0 (F := Ideal) X ix0 :=
  (val_main_v6_apply (F := Ideal) X i).trans (congrArg (val_main_v0 (F := Ideal) X) (eq_ix0 _))

theorem spread_scale (W : FVec Ideal S512x512 .f32) (i : S512x512.Idx) :
    val_main_v8 (F := Ideal) W i = val_main_v5 (F := Ideal) W ix0 :=
  (val_main_v8_apply (F := Ideal) W i).trans (congrArg (val_main_v5 (F := Ideal) W) (eq_ix0 _))

theorem spread_product (X : FVec Ideal S65536x512 .f32) (W : FVec Ideal S512x512 .f32) (i : S65536x512.Idx) :
    val_main_v19 (F := Ideal) X W i = val_main_v17 (F := Ideal) X W ix0 :=
  (val_main_v19_apply (F := Ideal) X W i).trans (congrArg (val_main_v17 (F := Ideal) X W) (eq_ix0 _))

/-- The floor of the positive part is 0. -/
theorem floor_zero (i : S512x512.Idx) : val_main_call0_v0 (F := Ideal) i = 0 := by
  rw [val_main_call0_v0_apply, val_main_call0_cst_apply]; exact Ideal.ofBits_zero_f32

theorem floor_zero' (i : S512x512.Idx) : val_main_call1_v0 (F := Ideal) i = 0 := by
  rw [val_main_call1_v0_apply, val_main_call1_cst_apply]; exact Ideal.ofBits_zero_f32

/-! ### The two scales -/

section Scales

variable (X : FVec Ideal S65536x512 .f32) (W : FVec Ideal S512x512 .f32)

/-- The greatest entry of an X of reals is a real. -/
theorem greatest_real (hX : ∀ i, X i ≠ ⊤ ∧ X i ≠ ⊥) :
    val_main_v0 (F := Ideal) X ix0 ≠ ⊤ ∧ val_main_v0 (F := Ideal) X ix0 ≠ ⊥ := by
  unfold val_main_v0
  exact Cert.LibExtrema.reduce_max_real X (val_main_cst (F := Ideal)) reducesTo_S65536x512_S_d0_1 h_S_ ix0
    Cert.LibExtrema.ofBits_neg_inf hX (ix2 (0 : Fin 65536) (0 : Fin 512))

/-- The least weight, for weights that are reals, is a real. -/
theorem least_real (hW : ∀ i, W i ≠ ⊤ ∧ W i ≠ ⊥) :
    val_main_v1 (F := Ideal) W ix0 ≠ ⊤ ∧ val_main_v1 (F := Ideal) W ix0 ≠ ⊥ := by
  unfold val_main_v1
  exact Cert.LibExtrema.reduce_min_real W (val_main_cst_0 (F := Ideal)) reducesTo_S512x512_S_d0_1 h_S_ ix0
    Cert.LibExtrema.ofBits_pos_inf hW (ix2 (0 : Fin 512) (0 : Fin 512))

/-- The greatest weight, for weights that are reals, is a real. -/
theorem most_real (hW : ∀ i, W i ≠ ⊤ ∧ W i ≠ ⊥) :
    val_main_v3 (F := Ideal) W ix0 ≠ ⊤ ∧ val_main_v3 (F := Ideal) W ix0 ≠ ⊥ := by
  unfold val_main_v3
  exact Cert.LibExtrema.reduce_max_real W (val_main_cst_1 (F := Ideal)) reducesTo_S512x512_S_d0_1 h_S_ ix0
    Cert.LibExtrema.ofBits_neg_inf hW (ix2 (0 : Fin 512) (0 : Fin 512))

/-- Every weight lies between the least and the greatest. -/
theorem least_le (i : S512x512.Idx) : val_main_v1 (F := Ideal) W ix0 ≤ W i := by
  unfold val_main_v1
  exact Cert.LibExtrema.reduce_min_le W (val_main_cst_0 (F := Ideal)) reducesTo_S512x512_S_d0_1 h_S_ ix0 i

theorem le_most (i : S512x512.Idx) : W i ≤ val_main_v3 (F := Ideal) W ix0 := by
  unfold val_main_v3
  exact Cert.LibExtrema.le_reduce_max W (val_main_cst_1 (F := Ideal)) reducesTo_S512x512_S_d0_1 h_S_ ix0 i

/-- The weights' scale is the larger of |least weight| and |greatest weight|. -/
theorem scale_eq : val_main_v5 (F := Ideal) W ix0
    = max (max (val_main_v1 (F := Ideal) W ix0) (-(val_main_v1 (F := Ideal) W ix0)))
        (max (val_main_v3 (F := Ideal) W ix0) (-(val_main_v3 (F := Ideal) W ix0))) := by
  rw [val_main_v5_apply (F := Ideal), val_main_v2_apply (F := Ideal), val_main_v4_apply (F := Ideal),
    Ideal.maximumf_def, Ideal.hostAbsf_def, Ideal.hostAbsf_def, Ideal.absf_def, Ideal.absf_def]

/-- For weights that are reals the scale is a real. -/
theorem scale_real (hW : ∀ i, W i ≠ ⊤ ∧ W i ≠ ⊥) :
    val_main_v5 (F := Ideal) W ix0 ≠ ⊤ ∧ val_main_v5 (F := Ideal) W ix0 ≠ ⊥ := by
  rw [scale_eq]
  exact Cert.LibExtrema.max_real _ _ (Cert.LibExtrema.abs_real _ (least_real W hW))
    (Cert.LibExtrema.abs_real _ (most_real W hW))

/-- If the scale is 0, every weight is 0. -/
theorem weights_zero (h : val_main_v5 (F := Ideal) W ix0 = 0) (i : S512x512.Idx) : W i = 0 :=
  Cert.LibExtrema.eq_zero_of_maxAbs_eq_zero (val_main_v1 (F := Ideal) W ix0) (val_main_v3 (F := Ideal) W ix0) W
    (least_le W) (le_most W) ((scale_eq W).symm.trans h) i

end Scales

/-! ### The result -/

/-- For X and W of reals with the greatest entry of X not 0, the reference's result is the specification. -/
theorem result_eq (X : FVec Ideal S65536x512 .f32) (W : FVec Ideal S512x512 .f32) (B : FVec Ideal S512 .f32)
    (hX : ∀ i, X i ≠ ⊤ ∧ X i ≠ ⊥) (hW : ∀ i, W i ≠ ⊤ ∧ W i ≠ ⊥) (ha : val_main_v0 (F := Ideal) X ix0 ≠ 0) :
    val_main_v23 (F := Ideal) X W B = G X W B := by
  funext i
  obtain ⟨r, c, rfl⟩ : ∃ (r : Fin 65536) (c : Fin 512), i = ix2 r c := ⟨i 0, i 1, eq_ix2 i⟩
  rw [G_apply, val_main_v23_apply, val_main_v20_apply, spread_product, val_main_v17_apply, val_main_v18_apply,
    val_main_v14_apply, val_main_v16_apply, val_main_v22_apply, val_main_v21_apply, bias_col]
  -- each operation read at its entry: the quotients by the two scales, the two positive parts, the two products
  simp (config := { implicitDefEqProofs := false }) only [val_main_v7_apply, spread_greatest, val_main_v13_apply,
    val_main_v10_apply, val_main_v9_apply, spread_scale, floor_zero, val_main_v15_apply, val_main_v12_apply,
    val_main_v11_apply, floor_zero', lhs_row, lhs_row', rhs_row, rhs_row',
    Ideal.addf_def, Ideal.mulf_def, Ideal.subf_def, Ideal.hostDivf_def, Ideal.maximumf_def, Ideal.hostNegf_def,
    Ideal.negf_def]
  have h1 := greatest_real X hX
  have h2 := scale_real W hW
  have h3 := weights_zero W
  -- all that the law needs of the two scales: both are reals, the first is not 0, the second is 0 only with W = 0
  generalize val_main_v0 (F := Ideal) X ix0 = nx at h1 ha ⊢
  generalize val_main_v5 (F := Ideal) W ix0 = nw at h2 h3 ⊢
  exact congrArg (· + B (ix1 c)) (scaled_split_eq X W nx nw hX hW h1 ha h2 h3 r c)

end Cert.LinearBias.Ref

end
-- ==== Proof.KernelBody.lean ====
/-
  The kernel's body, entry by entry.

  The grid has 32 points; point t works on rows 2048·t … 2048·t + 2047 of X and of the result, with the whole
  transposed weights and the whole bias row in view.  Its body multiplies the block of X by the transposed weights
  (an exact contraction over the 512 inner positions, from a zero accumulator) and adds the bias row to every row.
  So entry (p, q) of what a point stores is  Σ_k X[row, k] · W[q, k] + B[q]  for the row of X that block row p holds:
  entry (row, q) of the specification.
-/
import proofs.«418667_j44985487458619_3_alg».proof.Proof.Gen.KernelIdeal.Skeleton
import proofs.«418667_j44985487458619_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.LinearBias.Kern

open Cert.KernelIdeal Cert.KernelIdeal.Gen Idealize.ShloMosaic
open Idealize.ShloMosaic.ValueIdx
open Cert.LinearBias

/-! ### The contraction's operand positions, axis by axis -/

theorem lhs_ax0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem lhs_ax1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_ax0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_ax1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-! ### The body's arithmetic at an entry -/

/-- The block product from a zero accumulator, at (p, q): row p of the left block against column q of the right. -/
theorem product_entry (x0 : FVec Ideal S2048x512 .bf16) (x1 : FVec Ideal S512x512 .bf16) (p : Fin 2048) (q : Fin 512) :
    matmul (F := Ideal) dot_S2048x512_S512x512_S2048x512_1_0_0_1_n_n none x0 x1
        (constant (F := Ideal) S2048x512 .f32 0x00000000#32) (ix2 p q)
      = ∑ k : Fin 512, x0 (ix2 p k) * x1 (ix2 k q) := by
  show FloatOps.matmul _ _ _ _ _ _ = _
  rw [Ideal.matmul_constant_zero_apply,
    ← Equiv.sum_comp (ValueIdx.contrEquiv1 dot_S2048x512_S512x512_S2048x512_1_0_0_1_n_n 512 rfl rfl).symm]
  refine Finset.sum_congr rfl fun k _ => ?_
  have hk := ValueIdx.contrEquiv1_symm_val dot_S2048x512_S512x512_S2048x512_1_0_0_1_n_n 512 rfl rfl k
  have el : dot_S2048x512_S512x512_S2048x512_1_0_0_1_n_n.lhsIdx (ix2 p q)
      ((ValueIdx.contrEquiv1 dot_S2048x512_S512x512_S2048x512_1_0_0_1_n_n 512 rfl rfl).symm k) = ix2 p k :=
    funext fun a => Fin.ext (by
      match a with
      | ⟨0, _⟩ => exact lhs_ax0 _ _
      | ⟨1, _⟩ => exact (lhs_ax1 _ _).trans hk)
  have er : dot_S2048x512_S512x512_S2048x512_1_0_0_1_n_n.rhsIdx (ix2 p q)
      ((ValueIdx.contrEquiv1 dot_S2048x512_S512x512_S2048x512_1_0_0_1_n_n 512 rfl rfl).symm k) = ix2 k q :=
    funext fun a => Fin.ext (by
      match a with
      | ⟨0, _⟩ => exact (rhs_ax0 _ _).trans hk
      | ⟨1, _⟩ => exact rhs_ax1 _ _)
  rw [el, er]

/-- The bias row spread down the 2048 rows, at (p, q), is the row's entry q. -/
theorem bias_entry (x2 : FVec Ideal S1x512 .f32) (p : Fin 2048) (q : Fin 512) :
    broadcastTo S2048x512 x2 broadcasts_S1x512_S2048x512 (ix2 p q) = x2 (ix2 (0 : Fin 1) q) :=
  broadcastTo_apply x2 broadcasts_S1x512_S2048x512 (ix2 p q) (ix2 (0 : Fin 1) q) (fun a => match a with
    | ⟨0, _⟩ => by show 0 = if (1 : Nat) = 1 then 0 else _; rw [if_pos rfl]
    | ⟨1, _⟩ => by show q.val = if (512 : Nat) = 1 then 0 else q.val; rw [if_neg (by decide)])

/-- What the body stores, at (p, q), from the three blocks it loaded. -/
theorem body_entry (x0 : Vec Ideal S2048x512 .f32) (x1 : Vec Ideal S512x512 .bf16) (x2 : Vec Ideal S1x512 .f32)
    (p : Fin 2048) (q : Fin 512) :
    k0_pay1 x0 x1 x2 (ix2 p q) = (∑ k : Fin 512, x0 (ix2 p k) * x1 (ix2 k q)) + x2 (ix2 (0 : Fin 1) q) := by
  unfold k0_pay1
  show FloatOps.addf
      (matmul (F := Ideal) dot_S2048x512_S512x512_S2048x512_1_0_0_1_n_n none (truncf .bf16 x0 bitsLt_bf16_f32)
        (shapeCast S512x512 x1 shapeCasts_S512x512_S512x512) (constant (F := Ideal) S2048x512 .f32 0x00000000#32) (ix2 p q))
      (broadcastTo S2048x512 (shapeCast S1x512 x2 shapeCasts_S1x512_S1x512) broadcasts_S1x512_S2048x512 (ix2 p q)) = _
  rw [shapeCast_self, shapeCast_self, product_entry, bias_entry]
  rfl

/-- If block row p of the first block is row number row of X, the second block the transposed weights and the third
    the bias row, the body's entry (p, q) is entry (row, q) of the specification. -/
theorem body_is_spec (X : (⟨2, ![65536, 512]⟩ : Shape).Idx → EReal) (W : (⟨2, ![512, 512]⟩ : Shape).Idx → EReal)
    (B : (⟨1, ![512]⟩ : Shape).Idx → EReal)
    (x0 : Vec Ideal S2048x512 .f32) (x1 : Vec Ideal S512x512 .bf16) (x2 : Vec Ideal S1x512 .f32)
    (row : Fin 65536) (p : Fin 2048) (q : Fin 512)
    (h0 : ∀ k : Fin 512, x0 (ix2 p k) = X (ix2 row k)) (h1 : ∀ k : Fin 512, x1 (ix2 k q) = W (ix2 q k))
    (h2 : x2 (ix2 (0 : Fin 1) q) = B (ix1 q)) :
    k0_pay1 x0 x1 x2 (ix2 p q) = G X W B (ix2 row q) := by
  rw [body_entry, G_apply, h2]
  exact congrArg (· + B (ix1 q)) (Finset.sum_congr rfl fun k _ => by rw [h0 k, h1 k])

end Cert.LinearBias.Kern

end
-- ==== Proof.KernelValue.lean ====
/-
  The kernel's result array after the run is the specification.

  Point t of the 32-point grid reads rows 2048·t … 2048·t + 2047 of X through its first window, the whole transposed
  weights and the whole bias row through the second and third, and writes rows 2048·t … 2048·t + 2047 of the result.
  The transposed weights at (k, q) are W[q, k] (a change of float format is the identity on the extended reals) and
  the bias row at (0, q) is B[q].  So what point t writes back is block t of the specification, and the 32 blocks
  tile the result: row i lies in block i / 2048.
-/
import proofs.«418667_j44985487458619_3_alg».proof.Proof.Gen.KernelIdeal.Value
import proofs.«418667_j44985487458619_3_alg».proof.Proof.KernelBody
import Idealize.ShloMosaic.Lib.StableHlo.Run

noncomputable section

namespace Cert.LinearBias.Kern

open Cert.KernelIdeal Cert.KernelIdeal.Gen Idealize.ShloMosaic Idealize.ShloMosaic.TcCoe Idealize.SL.Sem
open Idealize.ShloMosaic.ValueIdx
open Idealize.ShloMosaic.Pipeline (Dat)
open Cert.LinearBias

variable (m : (ℓ : Loc nD τ sig) → Buf (Elt Ideal) ℓ) (ρ : Dev nD → PrngReg)

theorem origin : (![0, 0] : Fin 2 → Nat) = fun _ => 0 := funext fun a => by fin_cases a <;> rfl

/-- The printed index maps over the 32 points: X's and the result's blocks move down with the point, everything
    else stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ### The arrays the region finds -/

/-- The second window's array: the weights transposed (its change of format is the identity here). -/
theorem weightsT_entry (c : Dev nD) (k q : Fin 512) :
    (V m c main_v1 : S512x512.Idx → EReal) (ix2 k q) = m ((c : Thread nD τ).loc main_arg1) (ix2 q k) := by
  have e : (V m c main_v1 : S512x512.Idx → EReal)
      = truncf (F := Ideal) .bf16 (transpose S512x512 [1, 0] (m ((c : Thread nD τ).loc main_arg1))
          transposes_S512x512_S512x512_1_0) bitsLt_bf16_f32 := by
    dsimp only [Gen.V, Gen.hostOps0]; after_results
  rw [e]
  show transpose S512x512 [1, 0] (m ((c : Thread nD τ).loc main_arg1)) transposes_S512x512_S512x512_1_0 (ix2 k q) = _
  exact transpose_apply [1, 0] _ transposes_S512x512_S512x512_1_0 (ix2 k q) (ix2 q k) (fun b => match b with
    | ⟨0, _⟩ => rfl
    | ⟨1, _⟩ => rfl)

/-- The third window's array: the bias as one row. -/
theorem biasRow_entry (c : Dev nD) (q : Fin 512) :
    (V m c main_v2 : S1x512.Idx → EReal) (ix2 (0 : Fin 1) q) = m ((c : Thread nD τ).loc main_arg2) (ix1 q) := by
  have e : (V m c main_v2 : S1x512.Idx → EReal)
      = shapeCast S1x512 (m ((c : Thread nD τ).loc main_arg2)) shapeCasts_S512_S1x512 := by
    dsimp only [Gen.V, Gen.hostOps0]; after_results; rfl
  rw [e]
  exact shapeCast_apply _ shapeCasts_S512_S1x512 (ix2 (0 : Fin 1) q) (ix1 q) (by
    rw [Shape.rowMajor_val_one, Shape.rowMajor_val_two]; show q.val = 0 * 512 + q.val; omega)

/-! ### What a point writes back -/

/-- Point t writes back block t of the specification of the argument arrays. -/
theorem flushed_eq (c : Dev nD) (t : Fin cfg0.N) :
    (dats m 0 c).flushed 3 t = ((cfg0.win 3).blk t).view.read (Elt Ideal)
      (G (m ((c : Thread nD τ).loc main_arg0)) (m ((c : Thread nD τ).loc main_arg1)) (m ((c : Thread nD τ).loc main_arg2))) := by
  rw [Cert.KernelIdeal.Value.flushed3]
  unfold out0_3
  rw [View.canon_unit_zero origin]
  simp only [View.ld_unit_zero (S := S2048x512) origin, View.ld_unit_zero (S := S512x512) origin,
    View.ld_unit_zero (S := S1x512) origin]
  obtain ⟨e00, e01, e10, e11, e20, e21, e30, e31⟩ := idx_facts t
  have ht : t.val < 32 := t.isLt
  funext j
  obtain ⟨p, q, rfl⟩ : ∃ (p : Fin 2048) (q : Fin 512), j = ix2 p q := ⟨j 0, j 1, eq_ix2 j⟩
  have hp : p.val < 2048 := p.isLt
  -- the row of X, and of the result, that block row p is at point t
  let row : Fin 65536 := ⟨t.val * 2048 + p.val, by omega⟩
  have emb3 : ((cfg0.win 3).blk t).view.emb (ix2 p q) = ix2 row q := funext fun a => Fin.ext (by
    match a with
    | ⟨0, _⟩ => show win0_3.index t (0 : Fin 2) * 2048 + 1 * p.val = t.val * 2048 + p.val; omega
    | ⟨1, _⟩ => show win0_3.index t (1 : Fin 2) * 512 + 1 * q.val = q.val; omega)
  show k0_pay1 (iblk m c 0 t) (iblk m c 1 t) (iblk m c 2 t) (ix2 p q)
    = G (m ((c : Thread nD τ).loc main_arg0)) (m ((c : Thread nD τ).loc main_arg1)) (m ((c : Thread nD τ).loc main_arg2))
        (((cfg0.win 3).blk t).view.emb (ix2 p q))
  rw [emb3]
  refine body_is_spec _ _ _ (iblk m c 0 t) (iblk m c 1 t) (iblk m c 2 t) row p q (fun k => ?_) (fun k => ?_) ?_
  · -- the block of X
    show V m c main_arg0 (((cfg0.win 0).blk t).view.emb (ix2 p k)) = _
    rw [V_main_arg0]
    refine congrArg _ (funext fun a => Fin.ext ?_)
    match a with
    | ⟨0, _⟩ => show win0_0.index t (0 : Fin 2) * 2048 + 1 * p.val = t.val * 2048 + p.val; omega
    | ⟨1, _⟩ => show win0_0.index t (1 : Fin 2) * 512 + 1 * k.val = k.val; omega
  · -- the transposed weights, whole
    show (V m c main_v1 : S512x512.Idx → EReal) (((cfg0.win 1).blk t).view.emb (ix2 k q)) = _
    have e1 : ((cfg0.win 1).blk t).view.emb (ix2 k q) = ix2 k q := funext fun a => Fin.ext (by
      match a with
      | ⟨0, _⟩ => show win0_1.index t (0 : Fin 2) * 512 + 1 * k.val = k.val; omega
      | ⟨1, _⟩ => show win0_1.index t (1 : Fin 2) * 512 + 1 * q.val = q.val; omega)
    rw [e1]
    exact weightsT_entry m c k q
  · -- the bias row, whole
    show (V m c main_v2 : S1x512.Idx → EReal) (((cfg0.win 2).blk t).view.emb (ix2 (0 : Fin 1) q)) = _
    have e2 : ((cfg0.win 2).blk t).view.emb (ix2 (0 : Fin 1) q) = ix2 (0 : Fin 1) q := funext fun a => Fin.ext (by
      match a with
      | ⟨0, _⟩ => show win0_2.index t (0 : Fin 2) * 1 + 1 * 0 = 0; omega
      | ⟨1, _⟩ => show win0_2.index t (1 : Fin 2) * 512 + 1 * q.val = q.val; omega)
    rw [e2]
    exact biasRow_entry m c q

/-! ### The blocks tile the result -/

/-- An entry of the result is in point t's block when each coordinate is in the block's range. -/
theorem mem_blk (t : Fin cfg0.N) (i : S65536x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v3).slice (win0_3.rect t)).set ↔ _
  rw [View.set_slice_whole, Rect.mem_set_unit]
  exact Iff.rfl

/-- Every entry of the result is in some point's block: row i is in block i / 2048. -/
theorem covered (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  have hlt : (i 0).val / 2048 < 32 := by omega
  refine ⟨⟨(i 0).val / 2048, hlt⟩, flush0_3 _, ?_⟩
  obtain ⟨-, -, -, -, -, -, e30, e31⟩ := idx_facts ⟨(i 0).val / 2048, hlt⟩
  have e30' : win0_3.index ⟨(i 0).val / 2048, hlt⟩ (0 : Fin 2) = (i 0).val / 2048 := e30
  rw [mem_blk]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    omega
  | ⟨1, _⟩ =>
    show win0_3.index ⟨(i 0).val / 2048, hlt⟩ (1 : Fin 2) * 512 ≤ (i 1).val
      ∧ (i 1).val < win0_3.index ⟨(i 0).val / 2048, hlt⟩ (1 : Fin 2) * 512 + 512
    omega

/-- The result array after the run is the specification of the argument arrays. -/
theorem final (c : Dev nD) : (dats m 0 c).arrAt 3 cfg0.N
    = G (m ((c : Thread nD τ).loc main_arg0)) (m ((c : Thread nD τ).loc main_arg1)) (m ((c : Thread nD τ).loc main_arg2)) :=
  (dats m 0 c).arrAt_eq_of_cover 3 _ (fun t _ => flushed_eq m c t) covered

/-- The kernel's run: it ends with the result at the specification and the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.LinearBias.Kern

end
-- ==== Proof.lean ====
/-
  The kernel computes  X · Wᵀ + B  in one matrix product per block of 2048 rows; the reference scales X by the inverse
  of its greatest entry a and W by the inverse of b = max(|least weight|, |greatest weight|), splits the scaled
  weights into positive and negative parts, multiplies X/a by each part, subtracts, scales the difference back by
  a · b and adds B.  On the extended reals, for arrays of real numbers with a ≠ 0, both are
      result[r, c] = Σ_k X[r, k] · W[c, k] + B[c] :
  max(y, 0) − max(−y, 0) = y joins the two split products into the product with W/b, and a · b cancels the two
  divisions (if b = 0 every weight is 0 and both sums vanish).  The precondition says exactly that the entries of X
  and W are finite and that a — the number the reference divides X by — is not 0; at a = 0 the reference's own value
  is undefined, and the two programs differ there.
  The kernel's side is read off its blockwise run (each grid point writes back one block of the specification, and the
  blocks tile the result); the reference's side off its run, one operation at a time.  Nothing was rewritten between
  the kernel and its idealization, so that conjunct is trivial.
-/
import proofs.«418667_j44985487458619_3_alg».proof.Defs
import proofs.«418667_j44985487458619_3_alg».proof.Proof.Gen.Kernel
import proofs.«418667_j44985487458619_3_alg».proof.Proof.Gen.Kernel.Skeleton
import proofs.«418667_j44985487458619_3_alg».proof.Proof.Gen.Kernel.Launch
import proofs.«418667_j44985487458619_3_alg».proof.Proof.Gen.Kernel.Points
import proofs.«418667_j44985487458619_3_alg».proof.Proof.Gen.Kernel.Frame
import proofs.«418667_j44985487458619_3_alg».proof.Proof.Gen.KernelIdeal
import proofs.«418667_j44985487458619_3_alg».proof.Proof.Gen.KernelIdeal.Skeleton
import proofs.«418667_j44985487458619_3_alg».proof.Proof.Gen.KernelIdeal.Launch
import proofs.«418667_j44985487458619_3_alg».proof.Proof.Gen.KernelIdeal.Points
import proofs.«418667_j44985487458619_3_alg».proof.Proof.Gen.KernelIdeal.Frame
import proofs.«418667_j44985487458619_3_alg».proof.Proof.Gen.ReferenceIdeal
import proofs.«418667_j44985487458619_3_alg».proof.Proof.Gen.Pre_finite_inputs
import proofs.«418667_j44985487458619_3_alg».proof.Proof.Gen.KernelIdeal.Value
import proofs.«418667_j44985487458619_3_alg».proof.Proof.Gen.ReferenceIdeal.Run
import proofs.«418667_j44985487458619_3_alg».proof.Proof.Gen.ReferenceIdeal.Read
import proofs.«418667_j44985487458619_3_alg».proof.Proof.Domain
import proofs.«418667_j44985487458619_3_alg».proof.Proof.RefValue
import proofs.«418667_j44985487458619_3_alg».proof.Proof.KernelValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on X, W and B, with X and W finite and the greatest entry of X not 0, both programs end
    with the result  Σ_k X[r, k] · W[c, k] + B[c]  at every entry (r, c). -/
theorem algebraic : Cert.algebraic_KernelIdeal_ReferenceIdeal := by
  intro m ρ m' ρ' hpre hagree
  refine ⟨fun c => Cert.LinearBias.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.LinearBias.Kern.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  obtain ⟨hX, hW, ha⟩ := Cert.LinearBias.domain _ _ _ (hpre c)
  exact Cert.LinearBias.Ref.result_eq _ _ _ hX hW ha

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
